-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S_ : Shape := ⟨0, ![]⟩

class Facts : Prop where
  bcast_S_S256x32768x1 : S_.BroadcastsInDim S256x32768x1 (![] : Fin 0 → Fin S256x32768x1.rank)
  reducesTo_S256x32768x1_S_d0_1_2 : S256x32768x1.ReducesTo [0, 1, 2] S_
  h_S_ : 0 < S_.numel
  bcast_S_S256x32768x8 : S_.BroadcastsInDim S256x32768x8 (![] : Fin 0 → Fin S256x32768x8.rank)
  reducesTo_S256x32768x8_S_d0_1_2 : S256x32768x8.ReducesTo [0, 1, 2] S_
  bcast_S_S9 : S_.BroadcastsInDim S9 (![] : Fin 0 → Fin S9.rank)
  reducesTo_S9_S_d0 : S9.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S256x32768x1 .f32) (main_arg1 : FVec F S256x32768x8 .f32) (main_arg2 : FVec F S9 .f32) (main_arg3 : FVec F S8 .f32) : IVec S_ 1 :=
  let main_v0 : FVec F S256x32768x1 .f32 := Host.absf main_arg0
  let main_cst : FVec F S_ .f32 := constant S_ .f32 0x7F800000#32
  let main_v1 : FVec F S256x32768x1 .f32 := broadcastInDim S256x32768x1 ![] bcast_S_S256x32768x1 main_cst
  let main_v2 : IVec S256x32768x1 1 := cmpf .olt main_v0 main_v1
  let main_c : IVec S_ 1 := constantI S_ 1 1#1
  let main_v3 : IVec S_ 1 := (fun x v => Host.reduce IntOp.andi x v reducesTo_S256x32768x1_S_d0_1_2 h_S_) main_v2 main_c
  let main_v4 : FVec F S256x32768x8 .f32 := Host.absf main_arg1
  let main_cst_0 : FVec F S_ .f32 := constant S_ .f32 0x7F800000#32
  let main_v5 : FVec F S256x32768x8 .f32 := broadcastInDim S256x32768x8 ![] bcast_S_S256x32768x8 main_cst_0
  let main_v6 : IVec S256x32768x8 1 := cmpf .olt main_v4 main_v5
  let main_c_1 : IVec S_ 1 := constantI S_ 1 1#1
  let main_v7 : IVec S_ 1 := (fun x v => Host.reduce IntOp.andi x v reducesTo_S256x32768x8_S_d0_1_2 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S8388608x1 : Shape := ⟨2, ![8388608, 1]⟩
abbrev S8388608x8 : Shape := ⟨2, ![8388608, 8]⟩
abbrev S9x1 : Shape := ⟨2, ![9, 1]⟩
abbrev S8x1 : Shape := ⟨2, ![8, 1]⟩
abbrev S8192x1 : Shape := ⟨2, ![8192, 1]⟩
abbrev S8192x8 : Shape := ⟨2, ![8192, 8]⟩
abbrev S1x8192 : Shape := ⟨2, ![1, 8192]⟩
abbrev S8x8192 : Shape := ⟨2, ![8, 8192]⟩
abbrev S1x1 : Shape := ⟨2, ![1, 1]⟩
abbrev S256x32768 : Shape := ⟨2, ![256, 32768]⟩

abbrev nBuf : Space → Nat
  | .hbm => 12
  | .vmem => 10
  | .smem => 0
  | _ => 0

abbrev bufTy : (tb : Table) → Fin (tcTables nBuf tb) → BufTy
  | .hbm, ⟨0, _⟩ => ⟨S256x32768x1, .f32⟩
  | .hbm, ⟨1, _⟩ => ⟨S256x32768x8, .f32⟩
  | .hbm, ⟨2, _⟩ => ⟨S9, .f32⟩
  | .hbm, ⟨3, _⟩ => ⟨S8, .f32⟩
  | .hbm, ⟨4, _⟩ => ⟨S8388608x1, .f32⟩
  | .hbm, ⟨5, _⟩ => ⟨S8388608x8, .f32⟩
  | .hbm, ⟨6, _⟩ => ⟨S9x1, .f32⟩
  | .hbm, ⟨7, _⟩ => ⟨S8x1, .f32⟩
  | .hbm, ⟨8, _⟩ => ⟨S8388608x1, .f32⟩
  | .hbm, ⟨9, _⟩ => ⟨S8388608x8, .f32⟩
  | .hbm, ⟨10, _⟩ => ⟨S256x32768, .f32⟩
  | .hbm, ⟨11, _⟩ => ⟨S256x32768x8, .f32⟩
  | .local _ .vmem, ⟨0, _⟩ => ⟨S8192x1, .f32⟩
  | .local _ .vmem, ⟨1, _⟩ => ⟨S8192x1, .f32⟩
  | .local _ .vmem, ⟨2, _⟩ => ⟨S8192x8, .f32⟩
  | .local _ .vmem, ⟨3, _⟩ => ⟨S8192x8, .f32⟩
  | .local _ .vmem, ⟨4, _⟩ => ⟨S9x1, .f32⟩
  | .local _ .vmem, ⟨5, _⟩ => ⟨S8x1, .f32⟩
  | .local _ .vmem, ⟨6, _⟩ => ⟨S8192x1, .f32⟩
  | .local _ .vmem, ⟨7, _⟩ => ⟨S8192x1, .f32⟩
  | .local _ .vmem, ⟨8, _⟩ => ⟨S8192x8, .f32⟩
  | .local _ .vmem, ⟨9, _⟩ => ⟨S8192x8, .f32⟩
  | _, _ => ⟨S256x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x32768x1_S8388608x1 : S256x32768x1.ShapeCasts S8388608x1
  shapeCasts_S256x32768x8_S8388608x8 : S256x32768x8.ShapeCasts S8388608x8
  shapeCasts_S9_S9x1 : S9.ShapeCasts S9x1
  shapeCasts_S8_S8x1 : S8.ShapeCasts S8x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S9x1_S9x1_0_0 : ∀ a, (![0, 0] : Fin 2 → Nat) a + S9x1.size a ≤ S9x1.size a
  h_S9x1 : 0 < S9x1.numel
  shapeCasts_S9x1_S9x1 : S9x1.ShapeCasts S9x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  transposes_S8192x1_p1_0_S1x8192 : S8192x1.Transposes [1, 0] S1x8192
  transposes_S8192x8_p1_0_S8x8192 : S8192x8.Transposes [1, 0] S8x8192
  slices_S9x1_o0_0_S1x1 : S9x1.Slices ![0, 0] S1x1
  slices_S9x1_o1_0_S8x1 : S9x1.Slices ![1, 0] S8x1
  broadcasts_S1x1_S1x8192 : S1x1.Broadcasts S1x8192
  slices_S8x8192_o0_0_S1x8192 : S8x8192.Slices ![0, 0] S1x8192
  broadcasts_S1x8192_S8x8192 : S1x8192.Broadcasts S8x8192
  broadcasts_S8x1_S8x8192 : S8x1.Broadcasts S8x8192
  iota_S8x8192_d0_w32 : S8x8192.Iotas .tc 32 [0]
  rotates_S8x8192_d0 : S8x8192.Rotates 0 none
  transposes_S1x8192_p1_0_S8192x1 : S1x8192.Transposes [1, 0] S8192x1
  transposes_S8x8192_p1_0_S8192x8 : S8x8192.Transposes [1, 0] S8192x8
  shapeCasts_S8388608x1_S256x32768 : S8388608x1.ShapeCasts S256x32768
  shapeCasts_S8388608x8_S256x32768x8 : S8388608x8.ShapeCasts S256x32768x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8388608x1.size a
  hwx0_0 : ∀ i : grid0.Coords, EltTy.bits .f32 = 32 ∨ (Rect.block (s := S8388608x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S8388608x8.size a
  hwx0_1 : ∀ i : grid0.Coords, EltTy.bits .f32 = 32 ∨ (Rect.block (s := S8388608x8) S8192x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x1.size a ≤ S9x1.size a
  hwx0_2 : ∀ i : grid0.Coords, EltTy.bits .f32 = 32 ∨ (Rect.block (s := S9x1) S9x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x1.size a ≤ S8388608x1.size a
  hwx0_4 : ∀ i : grid0.Coords, EltTy.bits .f32 = 32 ∨ (Rect.block (s := S8388608x1) S8192x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x8.size a ≤ S8388608x8.size a
  hwx0_5 : ∀ i : grid0.Coords, EltTy.bits .f32 = 32 ∨ (Rect.block (s := S8388608x8) S8192x8.size (cc0_transform_5 i) (hinb0_5 i)).WholeWords (EltTy.packing .f32)

variable [Facts₀]

abbrev win0_0 : Pipeline.Window sig grid0 :=
  Pipeline.Window.ofSpec (Memref.whole main_v0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8192x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8192x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S1 : Shape := ⟨1, ![1]⟩
abbrev S_ : Shape := ⟨0, ![]⟩
abbrev S1x1x8 : Shape := ⟨3, ![1, 1, 8]⟩
abbrev S256x32768x7 : Shape := ⟨3, ![256, 32768, 7]⟩
abbrev S256x32768 : Shape := ⟨2, ![256, 32768]⟩

abbrev nBuf : Space → Nat
  | .hbm => 25
  | .vmem => 0
  | .smem => 0
  | _ => 0

abbrev bufTy : (tb : Table) → Fin (tcTables nBuf tb) → BufTy
  | .hbm, ⟨0, _⟩ => ⟨S256x32768x1, .f32⟩
  | .hbm, ⟨1, _⟩ => ⟨S256x32768x8, .f32⟩
  | .hbm, ⟨2, _⟩ => ⟨S9, .f32⟩
  | .hbm, ⟨3, _⟩ => ⟨S8, .f32⟩
  | .hbm, ⟨4, _⟩ => ⟨S1, .f32⟩
  | .hbm, ⟨5, _⟩ => ⟨S_, .f32⟩
  | .hbm, ⟨6, _⟩ => ⟨S256x32768x1, .f32⟩
  | .hbm, ⟨7, _⟩ => ⟨S256x32768x1, .f32⟩
  | .hbm, ⟨8, _⟩ => ⟨S256x32768x1, .f32⟩
  | .hbm, ⟨9, _⟩ => ⟨S256x32768x1, .f32⟩
  | .hbm, ⟨10, _⟩ => ⟨S8, .f32⟩
  | .hbm, ⟨11, _⟩ => ⟨S1x1x8, .f32⟩
  | .hbm, ⟨12, _⟩ => ⟨S256x32768x8, .f32⟩
  | .hbm, ⟨13, _⟩ => ⟨S256x32768x8, .f32⟩
  | .hbm, ⟨14, _⟩ => ⟨S256x32768x8, .f32⟩
  | .hbm, ⟨15, _⟩ => ⟨S1x1x8, .f32⟩
  | .hbm, ⟨16, _⟩ => ⟨S256x32768x8, .f32⟩
  | .hbm, ⟨17, _⟩ => ⟨S256x32768x8, .f32⟩
  | .hbm, ⟨18, _⟩ => ⟨S256x32768x8, .f32⟩
  | .hbm, ⟨19, _⟩ => ⟨S256x32768x8, .f32⟩
  | .hbm, ⟨20, _⟩ => ⟨S256x32768x7, .f32⟩
  | .hbm, ⟨21, _⟩ => ⟨S_, .i32⟩
  | .hbm, ⟨22, _⟩ => ⟨S1, .i32⟩
  | .hbm, ⟨23, _⟩ => ⟨S256x32768x8, .f32⟩
  | .hbm, ⟨24, _⟩ => ⟨S256x32768, .f32⟩
  | _, _ => ⟨S256x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  slices_S9_S1_0 : S9.Slices ![0] S1
  shapeCasts_S1_S_ : S1.ShapeCasts S_
  bcast_S_S256x32768x1 : S_.BroadcastsInDim S256x32768x1 (![] : Fin 0 → Fin S256x32768x1.rank)
  slices_S256x32768x8_S256x32768x1_0_0_0 : S256x32768x8.Slices ![0, 0, 0] S256x32768x1
  slices_S9_S8_1 : S9.Slices ![1] S8
  bcast_S8_S1x1x8_2 : S8.BroadcastsInDim S1x1x8 (![2] : Fin 1 → Fin S1x1x8.rank)
  bcast_S256x32768x1_S256x32768x8_0_1_2 : S256x32768x1.BroadcastsInDim S256x32768x8 (![0, 1, 2] : Fin 3 → Fin S256x32768x8.rank)
  bcast_S1x1x8_S256x32768x8_0_1_2 : S1x1x8.BroadcastsInDim S256x32768x8 (![0, 1, 2] : Fin 3 → Fin S256x32768x8.rank)
  slices_S256x32768x8_S256x32768x7_0_0_1 : S256x32768x8.Slices ![0, 0, 1] S256x32768x7
  bcast_S_S1 : S_.BroadcastsInDim S1 (![] : Fin 0 → Fin S1.rank)
  shapeCasts_S256x32768x1_S256x32768 : S256x32768x1.ShapeCasts S256x32768
  scatter_S256x32768x8_S1_S256x32768x7_012_n_2_0_wf : ScatterDims.WF S256x32768x8 S1 S256x32768x7 [0, 1, 2] [] [2] 0

variable [Facts₀]

def scatter_S256x32768x8_S1_S256x32768x7_012_n_2_0 : ScatterDims S256x32768x8 S1 S256x32768x7 where
  updateWindowDims := [0, 1, 2]
  insertedWindowDims := []
  scatterDimsToOperandDims := [2]
  indexVectorDim := 0
  wf := scatter_S256x32768x8_S1_S256x32768x7_012_n_2_0_wf

class Facts : Prop extends Facts₀ where

variable [Facts]
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  What one grid point's body stores, entry by entry.

  The body works on a block of 8192 samples held as a column of inputs `x0` (8192 × 1), their taps `x1` (8192 × 8),
  and the two coefficient columns `x2` (9 × 1) and `x3` (8 × 1). It turns the blocks on their side so that the samples
  run along the lanes, computes there, and turns the two results back. Read at an entry, the turning cancels: the
  output at sample `r` is `x0 r · x2 0 + x1 r 0`, and tap `k` of the new state at sample `r` is
  `x0 r · x2 (k + 1) − (output at r) · x3 k` plus, for `k < 7`, the old tap `k + 1` (the taps rotated by seven places
  bring tap `(k + 1) mod 8` to place `k`, and the comparison of the row number with 7 masks the wrapped one to zero).
-/
import proofs.«165674_j50714973831168_1_alg».proof.Proof.Gen.KernelIdeal.Skeleton
import proofs.«165674_j50714973831168_1_alg».proof.Proof.LibColumn
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.LibColumn

variable {F : FTy → Type} [FloatOps F]

/-- The coefficient column as loaded: the cast to its own shape changes nothing. -/
theorem coeffs_eq (x2 : Vec F S9x1 .f32) : k0_pay1 x2 = x2 := by
  unfold k0_pay1
  exact shapeCast_self _ _

/-- The inputs on their side: lane `r` of the one row is sample `r`. -/
theorem inputsT_apply (x0 : Vec F S8192x1 .f32) (u : Fin 1) (r : Fin 8192) : k0_pay2 x0 (ix2 u r) = x0 (ix2 r u) := by
  unfold k0_pay2
  dsimp only
  rw [shapeCast_self]
  exact transpose_ix2_apply x0 _ u r

/-- The taps on their side: row `k`, lane `r` is tap `k` of sample `r`. -/
theorem tapsT_apply (x1 : Vec F S8192x8 .f32) (k : Fin 8) (r : Fin 8192) : k0_pay3 x1 (ix2 k r) = x1 (ix2 r k) := by
  unfold k0_pay3
  dsimp only
  rw [shapeCast_self]
  exact transpose_ix2_apply x1 _ k r

/-- The output row, lane `r`: `x0 r · x2 0 + x1 r 0`. -/
theorem outRow_apply (x0 : Vec F S8192x1 .f32) (x1 : Vec F S8192x8 .f32) (x2 : Vec F S9x1 .f32) (u : Fin 1) (r : Fin 8192) :
    k0_pay4 x0 x1 x2 (ix2 u r)
      = FloatOps.addf (FloatOps.mulf (x0 (ix2 r u)) (x2 (ix2 (0 : Fin 9) (0 : Fin 1)))) (x1 (ix2 r (0 : Fin 8))) := by
  unfold k0_pay4
  show FloatOps.addf (FloatOps.mulf (k0_pay2 x0 (ix2 u r))
      (broadcastTo S1x8192 (extractStridedSlice S1x1 ![0, 0] (k0_pay1 x2) slices_S9x1_o0_0_S1x1) broadcasts_S1x1_S1x8192 (ix2 u r)))
    (extractStridedSlice S1x8192 ![0, 0] (k0_pay3 x1) slices_S8x8192_o0_0_S1x8192 (ix2 u r)) = _
  have hu : 0 = 0 + u.val := by have := u.isLt; omega
  rw [inputsT_apply, coeffs_eq, broadcastTo_a1_ab_apply _ _ u r,
    slice2_axis0_apply 0 x2 slices_S9x1_o0_0_S1x1 u (0 : Fin 1) (0 : Fin 9) hu,
    slice2_axis0_apply 0 (k0_pay3 x1) slices_S8x8192_o0_0_S1x8192 u r (0 : Fin 8) hu,
    tapsT_apply]

/-- What the body stores into the output block, at sample `r`. -/
theorem outBlock_apply (x0 : Vec F S8192x1 .f32) (x1 : Vec F S8192x8 .f32) (x2 : Vec F S9x1 .f32) (r : Fin 8192) (u : Fin 1) :
    k0_pay5 x0 x1 x2 (ix2 r u)
      = FloatOps.addf (FloatOps.mulf (x0 (ix2 r u)) (x2 (ix2 (0 : Fin 9) (0 : Fin 1)))) (x1 (ix2 r (0 : Fin 8))) := by
  unfold k0_pay5
  dsimp only
  rw [transpose_ix2_apply (k0_pay4 x0 x1 x2) _ r u]
  exact outRow_apply x0 x1 x2 u r

/-- The comparison of a row number with 7, row by row: set on rows 0 … 6, clear on row 7. -/
theorem row_lt7 : ∀ k : Fin 8, IntOp.cmpi .slt (BitVec.ofNat 32 k.val) 7#32 = if k.val < 7 then 1#1 else 0#1 := by decide

/-- The taps rotated by seven places along the rows: row `k` holds tap `(k + 1) mod 8`. -/
theorem tapsRot_apply (x1 : Vec F S8192x8 .f32) (k : Fin 8) (r : Fin 8192) :
    dynamicRotate 0 7#32 none (k0_pay3 x1) rotates_S8x8192_d0 (ix2 k r)
      = x1 (ix2 r (⟨(k.val + 1) % 8, Nat.mod_lt _ (by decide)⟩ : Fin 8)) := by
  unfold dynamicRotate
  dsimp only
  refine Eq.trans (congrArg (k0_pay3 x1) ?_) (tapsT_apply x1 ⟨(k.val + 1) % 8, Nat.mod_lt _ (by decide)⟩ r)
  funext b
  match b with
  | ⟨0, _⟩ =>
    refine (if_pos (by rfl)).trans ?_
    apply Fin.ext
    show (k.val + 8 - (7 + 0) % 8) % 8 = (k.val + 1) % 8
    have := k.isLt
    omega
  | ⟨1, _⟩ => rfl

/-- What the body stores into the new-state block, at sample `r`, tap `k`. -/
theorem tapBlock_apply (x0 : Vec F S8192x1 .f32) (x1 : Vec F S8192x8 .f32) (x2 : Vec F S9x1 .f32) (x3 : Vec F S8x1 .f32)
    (r : Fin 8192) (k : Fin 8) :
    k0_pay6 x0 x1 x2 x3 (ix2 r k)
      = FloatOps.addf
          (FloatOps.subf (FloatOps.mulf (x0 (ix2 r (0 : Fin 1))) (x2 (ix2 (⟨1 + k.val, by omega⟩ : Fin 9) (0 : Fin 1))))
            (FloatOps.mulf (FloatOps.addf (FloatOps.mulf (x0 (ix2 r (0 : Fin 1))) (x2 (ix2 (0 : Fin 9) (0 : Fin 1)))) (x1 (ix2 r (0 : Fin 8))))
              (x3 (ix2 k (0 : Fin 1)))))
          (if h : k.val < 7 then x1 (ix2 r (⟨k.val + 1, by omega⟩ : Fin 8)) else FloatOps.ofBits .f32 0x00000000#32) := by
  unfold k0_pay6
  rw [transpose_ix2_apply _ _ r k]
  simp only [addf, subf, mulf, select, cmpi, broadcast]
  have hrow : iota .tc S8x8192 32 [0] iota_S8x8192_d0_w32 (ix2 k r) = BitVec.ofNat 32 k.val :=
    iota_single_apply .tc S8x8192 32 (0 : Fin 2) _ (ix2 k r)
  rw [broadcastTo_1b_ab_apply (k0_pay2 x0) _ k r, inputsT_apply x0 0 r,
    broadcastTo_a1_ab_apply (extractStridedSlice S8x1 ![1, 0] (k0_pay1 x2) slices_S9x1_o1_0_S8x1) _ k r,
    slice2_axis0_apply 1 (k0_pay1 x2) slices_S9x1_o1_0_S8x1 k (0 : Fin 1) (⟨1 + k.val, by omega⟩ : Fin 9) rfl, coeffs_eq,
    broadcastTo_1b_ab_apply (k0_pay4 x0 x1 x2) _ k r, outRow_apply x0 x1 x2 0 r,
    broadcastTo_a1_ab_apply (shapeCast S8x1 x3 shapeCasts_S8x1_S8x1) _ k r, shapeCast_self,
    hrow, tapsRot_apply, row_lt7]
  congr 1
  by_cases h : k.val < 7
  · rw [if_pos h, dif_pos h, select_one]
    exact congrArg (fun j => x1 (ix2 r j)) (Fin.ext (Nat.mod_eq_of_lt (by omega)))
  · rw [if_neg h, dif_neg h, select_zero]

end Cert.KernelIdeal.Body

end
-- ==== Proof.KernelArrays.lean ====
/-
  The two result arrays of the kernel's region, as whole-array functions of the arrays the region is launched on.

  The region walks 1024 grid points; point `t` works on rows `8192 t … 8192 t + 8191` of the flat input column and of the
  flat tap matrix (8388608 rows each) and on the whole of both coefficient columns, and writes the same rows of the two
  results. So row `n` of each result depends only on row `n` of the inputs and taps: the output column at row `n` is
  `X n · B 0 + T n 0`, and the new taps at row `n`, tap `k` are `X n · B (k + 1) − (output at n) · A k` plus the old tap
  `k + 1` (zero for the last tap). The blocks of the 1024 points tile the rows, so the arrays end at these functions.
-/
import proofs.«165674_j50714973831168_1_alg».proof.Proof.Gen.KernelIdeal.Frame
import proofs.«165674_j50714973831168_1_alg».proof.Proof.KernelBody
import Idealize.ShloMosaic.Lib.Pipeline.Value
import Idealize.ShloMosaic.Lib.Tactic

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The results over the flat arrays -/

/-- The flat output column: row `n` is `X n · B 0 + T n 0`. -/
def flatOut (X : Vec F S8388608x1 .f32) (T : Vec F S8388608x8 .f32) (B : Vec F S9x1 .f32) : Vec F S8388608x1 .f32 :=
  fun i => FloatOps.addf (FloatOps.mulf (X (ix2 (i 0) (0 : Fin 1))) (B (ix2 (0 : Fin 9) (0 : Fin 1)))) (T (ix2 (i 0) (0 : Fin 8)))

/-- The flat new taps: row `n`, tap `k` is `X n · B (k + 1) − (output at n) · A k`, plus the old tap `k + 1` when `k < 7`. -/
def flatTaps (X : Vec F S8388608x1 .f32) (T : Vec F S8388608x8 .f32) (B : Vec F S9x1 .f32) (A : Vec F S8x1 .f32) :
    Vec F S8388608x8 .f32 :=
  fun i => FloatOps.addf
    (FloatOps.subf (FloatOps.mulf (X (ix2 (i 0) (0 : Fin 1))) (B (ix2 (⟨1 + (i 1).val, by have h : (i 1).val < 8 := (i 1).isLt; omega⟩ : Fin 9) (0 : Fin 1))))
      (FloatOps.mulf (FloatOps.addf (FloatOps.mulf (X (ix2 (i 0) (0 : Fin 1))) (B (ix2 (0 : Fin 9) (0 : Fin 1)))) (T (ix2 (i 0) (0 : Fin 8))))
        (A (ix2 (i 1) (0 : Fin 1)))))
    (if h : (i 1).val < 7 then T (ix2 (i 0) (⟨(i 1).val + 1, by omega⟩ : Fin 8)) else FloatOps.ofBits .f32 0x00000000#32)

/-! ## A point's stores are rows of the flat results -/

/-- If a point's blocks are rows `8192 n …` of `X` and `T` and the whole of `B`, what it stores into the output block
    at an entry is the flat output at the matching row. -/
theorem outBlock_flat (n : Nat) (hn : n < 1024) (x0 : Vec F S8192x1 .f32) (x1 : Vec F S8192x8 .f32) (x2 : Vec F S9x1 .f32)
    (X : Vec F S8388608x1 .f32) (T : Vec F S8388608x8 .f32) (B : Vec F S9x1 .f32)
    (h0 : ∀ (r : Fin 8192) (u : Fin 1), x0 (ix2 r u) = X (ix2 (⟨n * 8192 + r.val, by omega⟩ : Fin 8388608) u))
    (h1 : ∀ (r : Fin 8192) (k : Fin 8), x1 (ix2 r k) = T (ix2 (⟨n * 8192 + r.val, by omega⟩ : Fin 8388608) k))
    (h2 : x2 = B) (y : S8192x1.Idx) (i : S8388608x1.Idx) (hi : (i 0).val = n * 8192 + (y 0).val) :
    k0_pay5 x0 x1 x2 y = flatOut X T B i := by
  obtain ⟨r, u, rfl⟩ : ∃ (r : Fin 8192) (u : Fin 1), y = ix2 r u := ⟨y 0, y 1, eq_ix2 y⟩
  have hr : (⟨n * 8192 + r.val, by omega⟩ : Fin 8388608) = i 0 := Fin.ext hi.symm
  have hu : u = 0 := Fin.ext (by have := u.isLt; omega)
  rw [outBlock_apply, h0, h1, h2, hr, hu]
  rfl

/-- The same for the new-state block. -/
theorem tapBlock_flat (n : Nat) (hn : n < 1024) (x0 : Vec F S8192x1 .f32) (x1 : Vec F S8192x8 .f32) (x2 : Vec F S9x1 .f32)
    (x3 : Vec F S8x1 .f32) (X : Vec F S8388608x1 .f32) (T : Vec F S8388608x8 .f32) (B : Vec F S9x1 .f32) (A : Vec F S8x1 .f32)
    (h0 : ∀ (r : Fin 8192) (u : Fin 1), x0 (ix2 r u) = X (ix2 (⟨n * 8192 + r.val, by omega⟩ : Fin 8388608) u))
    (h1 : ∀ (r : Fin 8192) (k : Fin 8), x1 (ix2 r k) = T (ix2 (⟨n * 8192 + r.val, by omega⟩ : Fin 8388608) k))
    (h2 : x2 = B) (h3 : x3 = A) (y : S8192x8.Idx) (i : S8388608x8.Idx)
    (hi0 : (i 0).val = n * 8192 + (y 0).val) (hi1 : (i 1).val = (y 1).val) :
    k0_pay6 x0 x1 x2 x3 y = flatTaps X T B A i := by
  obtain ⟨r, k, rfl⟩ : ∃ (r : Fin 8192) (k : Fin 8), y = ix2 r k := ⟨y 0, y 1, eq_ix2 y⟩
  have hr : (⟨n * 8192 + r.val, by omega⟩ : Fin 8388608) = i 0 := Fin.ext hi0.symm
  have hk : k = i 1 := Fin.ext hi1.symm
  rw [tapBlock_apply]
  simp only [h0, h1, h2, h3, hr]
  subst hk
  rfl

end Cert.KernelIdeal.Arrays

end
-- ==== Proof.KernelRegion.lean ====
/-
  The region's two result arrays after the run.

  Point `t` of the grid reads block `t` of the flat inputs (rows `8192 t …`), block `t` of the flat taps, and the whole of
  both coefficient columns; it writes block `t` of each result. What it writes is the matching rows of the flat results
  (`flatOut`, `flatTaps`), and the 1024 blocks tile the 8388608 rows, so each result array ends at its flat function of
  the arrays the region was launched on.
-/
import proofs.«165674_j50714973831168_1_alg».proof.Proof.KernelArrays

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl

/-- The block index of every window at every point: the row windows are at block `t`, the coefficient windows at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 1024 := by
  have h : cfg0.N = 1024 := N_0
  have := t.isLt
  omega

/-- Point `t`'s input block is rows `8192 t …` of the flat inputs. -/
theorem inBlock_apply (c : Dev nD) (t : Fin cfg0.N) (r : Fin 8192) (u : Fin 1) :
    (iblk m c 0 t : Vec F S8192x1 .f32) (ix2 r u)
      = (V m c main_v0 : Vec F S8388608x1 .f32) (ix2 (⟨t.val * 8192 + r.val, by have := point_lt t; omega⟩ : Fin 8388608) u) := by
  obtain ⟨e0, e1, -⟩ := block_index t
  unfold iblk
  rw [View.read_apply]
  show V m c main_v0 _ = V m c main_v0 _
  congr 1
  funext a
  apply Fin.ext
  match a with
  | ⟨0, _⟩ => show win0_0.index t (0 : Fin 2) * 8192 + 1 * r.val = t.val * 8192 + r.val; rw [e0]; omega
  | ⟨1, _⟩ => show win0_0.index t (1 : Fin 2) * 1 + 1 * u.val = u.val; rw [e1]; omega

/-- Point `t`'s tap block is rows `8192 t …` of the flat taps. -/
theorem tapBlock_read (c : Dev nD) (t : Fin cfg0.N) (r : Fin 8192) (k : Fin 8) :
    (iblk m c 1 t : Vec F S8192x8 .f32) (ix2 r k)
      = (V m c main_v1 : Vec F S8388608x8 .f32) (ix2 (⟨t.val * 8192 + r.val, by have := point_lt t; omega⟩ : Fin 8388608) k) := by
  obtain ⟨-, -, e0, e1, -⟩ := block_index t
  unfold iblk
  rw [View.read_apply]
  show V m c main_v1 _ = V m c main_v1 _
  congr 1
  funext a
  apply Fin.ext
  match a with
  | ⟨0, _⟩ => show win0_1.index t (0 : Fin 2) * 8192 + 1 * r.val = t.val * 8192 + r.val; rw [e0]; omega
  | ⟨1, _⟩ => show win0_1.index t (1 : Fin 2) * 8 + 1 * k.val = k.val; rw [e1]; omega

/-- Every point reads the whole feed-forward column. -/
theorem ffBlock_eq (c : Dev nD) (t : Fin cfg0.N) : (iblk m c 2 t : Vec F S9x1 .f32) = (V m c main_v2 : Vec F S9x1 .f32) := by
  obtain ⟨-, -, -, -, e0, e1, -⟩ := block_index t
  funext y
  unfold iblk
  rw [View.read_apply]
  show V m c main_v2 _ = V m c main_v2 _
  congr 1
  funext a
  apply Fin.ext
  match a with
  | ⟨0, _⟩ => show win0_2.index t (0 : Fin 2) * 9 + 1 * (y 0).val = (y 0).val; rw [e0]; omega
  | ⟨1, _⟩ => show win0_2.index t (1 : Fin 2) * 1 + 1 * (y 1).val = (y 1).val; rw [e1]; omega

/-- Every point reads the whole feedback column. -/
theorem fbBlock_eq (c : Dev nD) (t : Fin cfg0.N) : (iblk m c 3 t : Vec F S8x1 .f32) = (V m c main_v3 : Vec F S8x1 .f32) := by
  obtain ⟨-, -, -, -, -, -, e0, e1, -⟩ := block_index t
  funext y
  unfold iblk
  rw [View.read_apply]
  show V m c main_v3 _ = V m c main_v3 _
  congr 1
  funext a
  apply Fin.ext
  match a with
  | ⟨0, _⟩ => show win0_3.index t (0 : Fin 2) * 8 + 1 * (y 0).val = (y 0).val; rw [e0]; omega
  | ⟨1, _⟩ => show win0_3.index t (1 : Fin 2) * 1 + 1 * (y 1).val = (y 1).val; rw [e1]; omega

/-! ## What a point writes back -/

/-- Point `t` writes back block `t` of the flat output. -/
theorem flushedOut_eq (c : Dev nD) (t : Fin cfg0.N) :
    (dats m 0 c).flushed 4 t
      = ((cfg0.win 4).blk t).view.read (Elt F) (flatOut (V m c main_v0) (V m c main_v1) (V m c main_v2)) := by
  show (cfg0.win 4).cut (grid0.coords t) ((dats m 0 c).after 4 t) = _
  rw [after0_4]
  unfold out0_4
  rw [View.canon_unit_zero zeros2]
  simp only [View.ld_unit_zero (S := S8192x1) zeros2, View.ld_unit_zero (S := S8192x8) zeros2, View.ld_unit_zero (S := S9x1) zeros2]
  obtain ⟨-, -, -, -, -, -, -, -, e0, e1, -⟩ := block_index t
  funext y
  refine outBlock_flat t.val (point_lt t) (iblk m c 0 t) (iblk m c 1 t) (iblk m c 2 t) (V m c main_v0) (V m c main_v1) (V m c main_v2)
    (inBlock_apply m c t) (tapBlock_read m c t) (ffBlock_eq m c t) y _ ?_
  show win0_4.index t (0 : Fin 2) * 8192 + 1 * (y 0).val = t.val * 8192 + (y 0).val
  rw [e0]; omega

/-- Point `t` writes back block `t` of the flat new taps. -/
theorem flushedTaps_eq (c : Dev nD) (t : Fin cfg0.N) :
    (dats m 0 c).flushed 5 t
      = ((cfg0.win 5).blk t).view.read (Elt F) (flatTaps (V m c main_v0) (V m c main_v1) (V m c main_v2) (V m c main_v3)) := by
  show (cfg0.win 5).cut (grid0.coords t) ((dats m 0 c).after 5 t) = _
  rw [after0_5]
  unfold out0_5
  rw [View.canon_unit_zero zeros2]
  simp only [View.ld_unit_zero (S := S8192x1) zeros2, View.ld_unit_zero (S := S8192x8) zeros2, View.ld_unit_zero (S := S9x1) zeros2,
    View.ld_unit_zero (S := S8x1) zeros2]
  obtain ⟨-, -, -, -, -, -, -, -, -, -, e0, e1⟩ := block_index t
  funext y
  refine tapBlock_flat t.val (point_lt t) (iblk m c 0 t) (iblk m c 1 t) (iblk m c 2 t) (iblk m c 3 t)
    (V m c main_v0) (V m c main_v1) (V m c main_v2) (V m c main_v3)
    (inBlock_apply m c t) (tapBlock_read m c t) (ffBlock_eq m c t) (fbBlock_eq m c t) y _ ?_ ?_
  · show win0_5.index t (0 : Fin 2) * 8192 + 1 * (y 0).val = t.val * 8192 + (y 0).val
    rw [e0]; omega
  · show win0_5.index t (1 : Fin 2) * 8 + 1 * (y 1).val = (y 1).val
    rw [e1]; omega

/-! ## The blocks tile the rows -/

/-- The point whose block holds row `n`. -/
def pointOf (n : Fin 8388608) : Fin cfg0.N := ⟨n.val / 8192, by rw [show cfg0.N = 1024 from N_0]; have := n.isLt; omega⟩

theorem memOut_blk (t : Fin cfg0.N) (i : S8388608x1.Idx) :
    i ∈ ((cfg0.win 4).blk t).view.set ↔ ∀ a : Fin 2, win0_4.index t a * S8192x1.size a ≤ (i a).val ∧ (i a).val < win0_4.index t a * S8192x1.size a + S8192x1.size a := by
  show i ∈ ((View.whole main_v4_0).slice (win0_4.rect t)).set ↔ _
  rw [View.set_slice_whole, Rect.mem_set_unit]
  exact Iff.rfl

theorem memTaps_blk (t : Fin cfg0.N) (i : S8388608x8.Idx) :
    i ∈ ((cfg0.win 5).blk t).view.set ↔ ∀ a : Fin 2, win0_5.index t a * S8192x8.size a ≤ (i a).val ∧ (i a).val < win0_5.index t a * S8192x8.size a + S8192x8.size a := by
  show i ∈ ((View.whole main_v4_1).slice (win0_5.rect t)).set ↔ _
  rw [View.set_slice_whole, Rect.mem_set_unit]
  exact Iff.rfl

/-- Every entry of the output column is in the block of the point its row belongs to. -/
theorem coverOut (i : S8388608x1.Idx) : ∃ t : Fin cfg0.N, (cfg0.win 4).flush t = true ∧ i ∈ ((cfg0.win 4).blk t).view.set := by
  have h0 : (i 0).val < 8388608 := (i 0).isLt
  have h1 : (i 1).val < 1 := (i 1).isLt
  obtain ⟨-, -, -, -, -, -, -, -, e0, e1, -⟩ := block_index (pointOf (i 0))
  have ht : (pointOf (i 0)).val = (i 0).val / 8192 := rfl
  refine ⟨pointOf (i 0), flush0_4 _, ?_⟩
  rw [memOut_blk]
  intro a
  match a with
  | ⟨0, _⟩ => show win0_4.index (pointOf (i 0)) (0 : Fin 2) * 8192 ≤ (i 0).val ∧ (i 0).val < win0_4.index (pointOf (i 0)) (0 : Fin 2) * 8192 + 8192; rw [e0, ht]; omega
  | ⟨1, _⟩ => show win0_4.index (pointOf (i 0)) (1 : Fin 2) * 1 ≤ (i 1).val ∧ (i 1).val < win0_4.index (pointOf (i 0)) (1 : Fin 2) * 1 + 1; rw [e1]; omega

/-- Every entry of the new taps is in the block of the point its row belongs to. -/
theorem coverTaps (i : S8388608x8.Idx) : ∃ t : Fin cfg0.N, (cfg0.win 5).flush t = true ∧ i ∈ ((cfg0.win 5).blk t).view.set := by
  have h0 : (i 0).val < 8388608 := (i 0).isLt
  have h1 : (i 1).val < 8 := (i 1).isLt
  obtain ⟨-, -, -, -, -, -, -, -, -, -, e0, e1⟩ := block_index (pointOf (i 0))
  have ht : (pointOf (i 0)).val = (i 0).val / 8192 := rfl
  refine ⟨pointOf (i 0), flush0_5 _, ?_⟩
  rw [memTaps_blk]
  intro a
  match a with
  | ⟨0, _⟩ => show win0_5.index (pointOf (i 0)) (0 : Fin 2) * 8192 ≤ (i 0).val ∧ (i 0).val < win0_5.index (pointOf (i 0)) (0 : Fin 2) * 8192 + 8192; rw [e0, ht]; omega
  | ⟨1, _⟩ => show win0_5.index (pointOf (i 0)) (1 : Fin 2) * 8 ≤ (i 1).val ∧ (i 1).val < win0_5.index (pointOf (i 0)) (1 : Fin 2) * 8 + 8; rw [e1]; omega

/-! ## The arrays after the run -/

/-- The output column ends at the flat output of the launched arrays. -/
theorem finalOut (c : Dev nD) :
    (dats m 0 c).arrAt 4 cfg0.N = flatOut (V m c main_v0) (V m c main_v1) (V m c main_v2) :=
  (dats m 0 c).arrAt_eq_of_cover 4 _ (fun t _ => flushedOut_eq m c t) coverOut

/-- The new taps end at the flat new taps of the launched arrays. -/
theorem finalTaps (c : Dev nD) :
    (dats m 0 c).arrAt 5 cfg0.N = flatTaps (V m c main_v0) (V m c main_v1) (V m c main_v2) (V m c main_v3) :=
  (dats m 0 c).arrAt_eq_of_cover 5 _ (fun t _ => flushedTaps_eq m c t) coverTaps

end Cert.KernelIdeal.Arrays

end
-- ==== Proof.Spec.lean ====
/-
  One step of a transposed direct-form-II filter, sample by sample.

  Every sample `(p, q)` carries an input `x p q` and eight state taps `v p q 0 … v p q 7`; the filter has nine
  feed-forward coefficients `b 0 … b 8` and eight feedback coefficients `a 0 … a 7`. The step's output is
  `y = x · b 0 + v 0`, and tap `k` of the new state is `x · b (k + 1) − y · a k` plus the old tap `k + 1` — plus
  zero for the last tap, which has no successor. Both programs compute these two arrays; they are stated here once, over
  the arrays' literal shapes, for any float instance.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The inputs: one value a sample. -/
abbrev SIn : Shape := ⟨3, ![256, 32768, 1]⟩
/-- The state: eight taps a sample. -/
abbrev STaps : Shape := ⟨3, ![256, 32768, 8]⟩
/-- The outputs: one value a sample. -/
abbrev SOut : Shape := ⟨2, ![256, 32768]⟩

/-- The output at sample `(p, q)`: `x · b 0 + v 0`. -/
def sampleOut (x : FVec F SIn .f32) (v : FVec F STaps .f32) (b : FVec F ⟨1, ![9]⟩ .f32) (p : Fin 256) (q : Fin 32768) : F .f32 :=
  FloatOps.addf (FloatOps.mulf (x (ix3 p q (0 : Fin 1))) (b (ix1 (0 : Fin 9)))) (v (ix3 p q (0 : Fin 8)))

/-- The old state shifted down by one tap: tap `k + 1` for `k < 7`, zero for the last tap. -/
def shifted (v : FVec F STaps .f32) (p : Fin 256) (q : Fin 32768) (k : Fin 8) : F .f32 :=
  if h : k.val < 7 then v (ix3 p q (⟨k.val + 1, by omega⟩ : Fin 8)) else FloatOps.ofBits .f32 0x00000000#32

/-- Tap `k` of the new state at sample `(p, q)`: `x · b (k + 1) − y · a k`, plus the shifted old state. -/
def sampleTap (x : FVec F SIn .f32) (v : FVec F STaps .f32) (b : FVec F ⟨1, ![9]⟩ .f32) (a : FVec F ⟨1, ![8]⟩ .f32)
    (p : Fin 256) (q : Fin 32768) (k : Fin 8) : F .f32 :=
  FloatOps.addf
    (FloatOps.subf (FloatOps.mulf (x (ix3 p q (0 : Fin 1))) (b (ix1 (⟨1 + k.val, by omega⟩ : Fin 9))))
      (FloatOps.mulf (sampleOut x v b p q) (a (ix1 k))))
    (shifted v p q k)

/-- The output array. -/
def output (x : FVec F SIn .f32) (v : FVec F STaps .f32) (b : FVec F ⟨1, ![9]⟩ .f32) : FVec F SOut .f32 :=
  fun i => sampleOut x v b (i 0) (i 1)

/-- The new state array. -/
def newState (x : FVec F SIn .f32) (v : FVec F STaps .f32) (b : FVec F ⟨1, ![9]⟩ .f32) (a : FVec F ⟨1, ![8]⟩ .f32) :
    FVec F STaps .f32 :=
  fun i => sampleTap x v b a (i 0) (i 1) (i 2)

end Cert.Spec

end
-- ==== Proof.FlatSpec.lean ====
/-
  The flat results, reshaped, are the specification.

  The kernel's region works on the arrays flattened over the samples: sample `(p, q)` is row `32768 p + q`, and the two
  coefficient vectors are columns. A reshape keeps the row-major position, so the flat input at row `32768 p + q` is the
  input at `(p, q)`, the flat taps at that row are the taps of `(p, q)`, and reshaping the flat results back gives the
  specification's two arrays, entry by entry.
-/
import proofs.«165674_j50714973831168_1_alg».proof.Proof.KernelArrays
import proofs.«165674_j50714973831168_1_alg».proof.Proof.Spec

noncomputable section

namespace Cert.KernelIdeal.Arrays

open Cert.KernelIdeal Cert.KernelIdeal.Gen Cert.LibColumn
open Idealize.ShloMosaic Idealize.ShloMosaic.ValueIdx

variable {F : FTy → Type} [FloatOps F]

/-- The row of sample `(p, q)`. -/
def rowOf (p : Fin 256) (q : Fin 32768) : Fin 8388608 := ⟨p.val * 32768 + q.val, by have := p.isLt; have := q.isLt; omega⟩

/-- The flat inputs at the row of `(p, q)` are the inputs at `(p, q)`. -/
theorem flatIn_apply (x : FVec F S256x32768x1 .f32) (p : Fin 256) (q : Fin 32768) (u : Fin 1) :
    shapeCast S8388608x1 x shapeCasts_S256x32768x1_S8388608x1 (ix2 (rowOf p q) u) = x (ix3 p q u) :=
  shapeCast_apply x _ _ _ (by rw [Shape.rowMajor_val_three, Shape.rowMajor_val_two]; rfl)

/-- The flat taps at the row of `(p, q)` are the taps of `(p, q)`. -/
theorem flatTapsIn_apply (v : FVec F S256x32768x8 .f32) (p : Fin 256) (q : Fin 32768) (k : Fin 8) :
    shapeCast S8388608x8 v shapeCasts_S256x32768x8_S8388608x8 (ix2 (rowOf p q) k) = v (ix3 p q k) :=
  shapeCast_apply v _ _ _ (by rw [Shape.rowMajor_val_three, Shape.rowMajor_val_two]; rfl)

/-- The flat output, reshaped to the samples, is the specification's output. -/
theorem out_spec (x : FVec F S256x32768x1 .f32) (v : FVec F S256x32768x8 .f32) (b : FVec F S9 .f32) :
    shapeCast S256x32768
        (flatOut (shapeCast S8388608x1 x shapeCasts_S256x32768x1_S8388608x1) (shapeCast S8388608x8 v shapeCasts_S256x32768x8_S8388608x8)
          (shapeCast S9x1 b shapeCasts_S9_S9x1))
        shapeCasts_S8388608x1_S256x32768
      = Spec.output x v b := by
  funext i
  obtain ⟨p, q, rfl⟩ : ∃ (p : Fin 256) (q : Fin 32768), i = ix2 p q := ⟨i 0, i 1, eq_ix2 i⟩
  refine (shapeCast_apply _ shapeCasts_S8388608x1_S256x32768 (ix2 p q) (ix2 (rowOf p q) (0 : Fin 1))
    (by rw [Shape.rowMajor_val_two, Shape.rowMajor_val_two]; show (p.val * 32768 + q.val) * 1 + 0 = p.val * 32768 + q.val; omega)).trans ?_
  unfold flatOut
  show FloatOps.addf (FloatOps.mulf (shapeCast S8388608x1 x shapeCasts_S256x32768x1_S8388608x1 (ix2 (rowOf p q) (0 : Fin 1)))
      (shapeCast S9x1 b shapeCasts_S9_S9x1 (ix2 (0 : Fin 9) (0 : Fin 1))))
    (shapeCast S8388608x8 v shapeCasts_S256x32768x8_S8388608x8 (ix2 (rowOf p q) (0 : Fin 8))) = _
  rw [flatIn_apply, flatTapsIn_apply, shapeCast_a_a1_apply]
  rfl

/-- The flat new taps, reshaped to the samples, are the specification's new state. -/
theorem taps_spec (x : FVec F S256x32768x1 .f32) (v : FVec F S256x32768x8 .f32) (b : FVec F S9 .f32) (a : FVec F S8 .f32) :
    shapeCast S256x32768x8
        (flatTaps (shapeCast S8388608x1 x shapeCasts_S256x32768x1_S8388608x1) (shapeCast S8388608x8 v shapeCasts_S256x32768x8_S8388608x8)
          (shapeCast S9x1 b shapeCasts_S9_S9x1) (shapeCast S8x1 a shapeCasts_S8_S8x1))
        shapeCasts_S8388608x8_S256x32768x8
      = Spec.newState x v b a := by
  funext i
  obtain ⟨p, q, k, rfl⟩ : ∃ (p : Fin 256) (q : Fin 32768) (k : Fin 8), i = ix3 p q k := ⟨i 0, i 1, i 2, eq_ix3 i⟩
  refine (shapeCast_apply _ shapeCasts_S8388608x8_S256x32768x8 (ix3 p q k) (ix2 (rowOf p q) k)
    (by rw [Shape.rowMajor_val_two, Shape.rowMajor_val_three]; rfl)).trans ?_
  unfold flatTaps
  show FloatOps.addf
    (FloatOps.subf (FloatOps.mulf (shapeCast S8388608x1 x shapeCasts_S256x32768x1_S8388608x1 (ix2 (rowOf p q) (0 : Fin 1)))
        (shapeCast S9x1 b shapeCasts_S9_S9x1 (ix2 (⟨1 + k.val, by omega⟩ : Fin 9) (0 : Fin 1))))
      (FloatOps.mulf (FloatOps.addf (FloatOps.mulf (shapeCast S8388608x1 x shapeCasts_S256x32768x1_S8388608x1 (ix2 (rowOf p q) (0 : Fin 1)))
          (shapeCast S9x1 b shapeCasts_S9_S9x1 (ix2 (0 : Fin 9) (0 : Fin 1))))
        (shapeCast S8388608x8 v shapeCasts_S256x32768x8_S8388608x8 (ix2 (rowOf p q) (0 : Fin 8))))
        (shapeCast S8x1 a shapeCasts_S8_S8x1 (ix2 k (0 : Fin 1)))))
    (if h : k.val < 7 then shapeCast S8388608x8 v shapeCasts_S256x32768x8_S8388608x8 (ix2 (rowOf p q) (⟨k.val + 1, by omega⟩ : Fin 8))
      else FloatOps.ofBits .f32 0x00000000#32) = _
  simp only [flatIn_apply, flatTapsIn_apply, shapeCast_a_a1_apply]
  rfl

end Cert.KernelIdeal.Arrays

end
-- ==== Proof.KernelRun.lean ====
/-
  The idealized kernel's whole run: both results as the specification's arrays of the arguments.

  Before the region the four arguments are reshaped — inputs and taps flattened over the samples, the two coefficient
  vectors turned into columns; after it the two result arrays are reshaped back to the samples. The region leaves the
  flat results of the flat arrays, so the two results of the program are the specification's output and new state.
-/
import proofs.«165674_j50714973831168_1_alg».proof.Proof.KernelRegion
import proofs.«165674_j50714973831168_1_alg».proof.Proof.FlatSpec
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The arrays the region is launched on -/

theorem launched_in (c : Dev nD) :
    (V m c main_v0 : Vec F S8388608x1 .f32)
      = shapeCast S8388608x1 (m ((c : Thread nD τ).loc main_arg0)) shapeCasts_S256x32768x1_S8388608x1 := by
  show StableHlo.after hostOps0 (fun b => m (c, b)) (Proc.devRef .tc main_v0) = _
  after_results
  rfl

theorem launched_taps (c : Dev nD) :
    (V m c main_v1 : Vec F S8388608x8 .f32)
      = shapeCast S8388608x8 (m ((c : Thread nD τ).loc main_arg1)) shapeCasts_S256x32768x8_S8388608x8 := by
  show StableHlo.after hostOps0 (fun b => m (c, b)) (Proc.devRef .tc main_v1) = _
  after_results
  rfl

theorem launched_ff (c : Dev nD) :
    (V m c main_v2 : Vec F S9x1 .f32) = shapeCast S9x1 (m ((c : Thread nD τ).loc main_arg2)) shapeCasts_S9_S9x1 := by
  show StableHlo.after hostOps0 (fun b => m (c, b)) (Proc.devRef .tc main_v2) = _
  after_results
  rfl

theorem launched_fb (c : Dev nD) :
    (V m c main_v3 : Vec F S8x1 .f32) = shapeCast S8x1 (m ((c : Thread nD τ).loc main_arg3)) shapeCasts_S8_S8x1 := by
  show StableHlo.after hostOps0 (fun b => m (c, b)) (Proc.devRef .tc main_v3) = _
  after_results
  rfl

/-! ## The results after the region -/

/-- The program's first result: the region's output column reshaped to the samples. -/
theorem tail_out (c : Dev nD) :
    Pipeline.afterTail₀ cfgs (dats m) 0 (V0 m) [hostOps1] c main_v5
      = shapeCast S256x32768 ((dats m 0 c).arrAt 4 cfg0.N) shapeCasts_S8388608x1_S256x32768 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0)
      = (dats m 0 c).arrAt 4 cfg0.N :=
    Pipeline.withArrays_arr spec0 launch0.win.arr_inj c (V0 m c) _ 4
  rw [e]
  rfl

/-- The program's second result: the region's new taps reshaped to the samples. -/
theorem tail_taps (c : Dev nD) :
    Pipeline.afterTail₀ cfgs (dats m) 0 (V0 m) [hostOps1] c main_v6
      = shapeCast S256x32768x8 ((dats m 0 c).arrAt 5 cfg0.N) shapeCasts_S8388608x8_S256x32768x8 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4_1)
      = (dats m 0 c).arrAt 5 cfg0.N :=
    Pipeline.withArrays_arr spec0 launch0.win.arr_inj c (V0 m c) _ 5
  rw [e]
  rfl

/-- The first result is the specification's output of the arguments. -/
theorem result_out (c : Dev nD) :
    Pipeline.afterTail₀ cfgs (dats m) 0 (V0 m) [hostOps1] c main_v5
      = Spec.output (m ((c : Thread nD τ).loc main_arg0)) (m ((c : Thread nD τ).loc main_arg1)) (m ((c : Thread nD τ).loc main_arg2)) := by
  rw [tail_out, finalOut, launched_in, launched_taps, launched_ff]
  exact out_spec _ _ _

/-- The second result is the specification's new state of the arguments. -/
theorem result_taps (c : Dev nD) :
    Pipeline.afterTail₀ cfgs (dats m) 0 (V0 m) [hostOps1] c main_v6
      = Spec.newState (m ((c : Thread nD τ).loc main_arg0)) (m ((c : Thread nD τ).loc main_arg1)) (m ((c : Thread nD τ).loc main_arg2))
          (m ((c : Thread nD τ).loc main_arg3)) := by
  rw [tail_taps, finalTaps, launched_in, launched_taps, launched_ff, launched_fb]
  exact taps_spec _ _ _ _

/-! ## The run -/

/-- Every weakly fair execution of the idealized kernel's program terminates with its two results at the specification's
    output and new state of the arguments, and the arguments unchanged. -/
theorem run : θ_run defs (onTc (τ := τ) (main (F := F))) ⟨m, fun _ => 0, ρ⟩ fun r => ∀ c : Dev nD,
      r.2.mem ((c : Thread nD τ).loc main_v5)
        = Spec.output (m ((c : Thread nD τ).loc main_arg0)) (m ((c : Thread nD τ).loc main_arg1)) (m ((c : Thread nD τ).loc main_arg2))
      ∧ r.2.mem ((c : Thread nD τ).loc main_v6)
        = Spec.newState (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v5 (Pipeline.mem_restRefs_of main_v5 (by decide) (by decide))).trans (result_out m c),
       ((h c).2 main_v6 (Pipeline.mem_restRefs_of main_v6 (by decide) (by decide))).trans (result_taps m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Arrays

end
-- ==== Proof.LibScatter.lean ====
/-
  A scatter read at an index, when every update lands inside the operand and no two updates land on the same element.

  `Host.scatter` is a left fold over the update indices in row-major order: each step rewrites the one element its update
  lands on by the scatter's body applied to what that element held and to the update. When the landing map is a total
  injection `e` of the update indices into the operand's indices, each element is rewritten at most once, so the fold
  can be read off pointwise: an element `e j` ends at the body applied to its original value and update `j`, and an
  element outside the image of `e` keeps its original value.
-/
import Idealize.ShloMosaic.PureOps.ShapeOps

namespace Cert.LibScatter

open Idealize.ShloMosaic

variable {α ι β : Type}

/-- One step of the fold: the element at `g n` is rewritten, every other element kept. -/
def step [DecidableEq β] (f : α → α → α) (g : ι → β) (u : ι → α) (r : β → α) (n : ι) : β → α :=
  fun i' => if i' = g n then f (r (g n)) (u n) else r i'

/-- An element no listed update lands on is left as it was. -/
theorem foldl_step_miss [DecidableEq β] (f : α → α → α) (g : ι → β) (u : ι → α) (i : β) :
    ∀ (l : List ι) (x : β → α), (∀ n ∈ l, g n ≠ i) → (l.foldl (step f g u) x) i = x i := by
  intro l
  induction l with
  | nil => intro x _; rfl
  | cons a l ih =>
    intro x h
    rw [List.foldl_cons, ih _ (fun n hn => h n (List.mem_cons_of_mem _ hn))]
    unfold step
    rw [if_neg (fun e => h a (List.mem_cons_self) e.symm)]

/-- The element the update `n₀` lands on, when no other listed update lands there, ends at the body applied to its
    original value and that update. -/
theorem foldl_step_hit [DecidableEq β] (f : α → α → α) (g : ι → β) (u : ι → α) (n₀ : ι) :
    ∀ (l : List ι) (x : β → α), n₀ ∈ l → l.Nodup → (∀ n ∈ l, g n = g n₀ → n = n₀) →
      (l.foldl (step f g u) x) (g n₀) = f (x (g n₀)) (u n₀) := by
  intro l
  induction l with
  | nil => intro x h; exact absurd h (List.not_mem_nil)
  | cons a l ih =>
    intro x hmem hnd hinj
    rw [List.foldl_cons]
    rcases List.mem_cons.1 hmem with rfl | hl
    · -- the update is the head: nothing in the tail lands on the same element
      have hnot : n₀ ∉ l := (List.nodup_cons.1 hnd).1
      rw [foldl_step_miss f g u (g n₀) l _ (fun n hn e => hnot ((hinj n (List.mem_cons_of_mem _ hn) e) ▸ hn))]
      unfold step
      rw [if_pos rfl]
    · -- the update is in the tail: the head lands elsewhere
      have hne : a ≠ n₀ := fun e => (List.nodup_cons.1 hnd).1 (e ▸ hl)
      rw [ih _ hl (List.nodup_cons.1 hnd).2 (fun n hn => hinj n (List.mem_cons_of_mem _ hn))]
      unfold step
      rw [if_neg (fun e => hne (hinj a (List.mem_cons_self) e.symm))]

variable {s si u : Shape} {w : Nat}

/-- The scatter's fold, when every update index `j` lands at `e j`, is the fold of `step` along `e`. -/
theorem scatter_eq_foldl (d : ScatterDims s si u) (f : α → α → α) (x : s.Idx → α) (idx : IVec si w) (upd : u.Idx → α)
    (e : u.Idx → s.Idx) (he : ∀ j, d.resultIdx? j idx = some (e j)) :
    Host.scatter d f x idx upd
      = (List.finRange u.numel).foldl (step f (fun n => e (u.rowMajor.symm n)) (fun n => upd (u.rowMajor.symm n))) x := by
  unfold Host.scatter
  congr 1
  funext r n
  rw [he]
  funext i'
  unfold step
  dsimp only

/-- A scatter whose updates all land inside the operand, no two on one element, read where update `j` lands. -/
theorem scatter_apply_hit (d : ScatterDims s si u) (f : α → α → α) (x : s.Idx → α) (idx : IVec si w) (upd : u.Idx → α)
    (e : u.Idx → s.Idx) (he : ∀ j, d.resultIdx? j idx = some (e j)) (hinj : Function.Injective e) (j : u.Idx) :
    Host.scatter d f x idx upd (e j) = f (x (e j)) (upd j) := by
  rw [scatter_eq_foldl d f x idx upd e he]
  have h := foldl_step_hit f (fun n => e (u.rowMajor.symm n)) (fun n => upd (u.rowMajor.symm n)) (u.rowMajor j)
    (List.finRange u.numel) x (List.mem_finRange _) (List.nodup_finRange _)
    (fun n _ hn => u.rowMajor.symm.injective (hinj hn))
  simp only [Equiv.symm_apply_apply] at h
  exact h

/-- The same scatter read at an element no update lands on: the operand's. -/
theorem scatter_apply_miss (d : ScatterDims s si u) (f : α → α → α) (x : s.Idx → α) (idx : IVec si w) (upd : u.Idx → α)
    (e : u.Idx → s.Idx) (he : ∀ j, d.resultIdx? j idx = some (e j)) (i : s.Idx) (hi : ∀ j, e j ≠ i) :
    Host.scatter d f x idx upd i = x i := by
  rw [scatter_eq_foldl d f x idx upd e he]
  exact foldl_step_miss f _ _ i _ x (fun n _ => hi _)

end Cert.LibScatter
-- ==== Proof.RefValue.lean ====
/-
  The reference computes the filter step of `Spec`.

  Its output is `input · b[0] + v[…, :1]` with the unit axis dropped: sample `(p, q)` reads `x p q · b 0 + v p q 0`.
  Its new state is `input · b[1:] − output · a`, onto whose first seven taps the last seven old taps are scatter-added:
  the one scatter window starts at tap 0 and is seven taps wide, so update `(p, q, k)` lands on element `(p, q, k)`,
  no two updates on one element, and tap 7 is landed on by none. Taps `k < 7` therefore end at the base value plus the
  old tap `k + 1`, and tap 7 keeps the base value — which over the extended reals is the base value plus zero.
-/
import proofs.«165674_j50714973831168_1_alg».proof.Proof.Gen.ReferenceIdeal.Read
import proofs.«165674_j50714973831168_1_alg».proof.Proof.Spec
import proofs.«165674_j50714973831168_1_alg».proof.Proof.LibScatter
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-! ## The output -/

/-- The scalar `b[0]`: the one-element slice with its axis dropped. -/
theorem b0_apply (x2 : FVec F S9 .f32) (i : S_.Idx) : val_main_v1 (F := F) x2 i = x2 (ix1 (0 : Fin 9)) := by
  unfold val_main_v1
  refine (shapeCast_apply _ shapeCasts_S1_S_ i (ix1 (0 : Fin 1)) ?_).trans ?_
  · have h : (S_.rowMajor i).val < 1 := (S_.rowMajor i).isLt
    rw [Shape.rowMajor_val_one]
    show 0 = (S_.rowMajor i).val
    omega
  · rw [val_main_v0_apply]
    exact congrArg x2 (funext fun a => match a with | ⟨0, _⟩ => rfl)

/-- The output before its unit axis is dropped, at sample `(p, q)`. -/
theorem out3_apply (x0 : FVec F S256x32768x1 .f32) (x1 : FVec F S256x32768x8 .f32) (x2 : FVec F S9 .f32)
    (p : Fin 256) (q : Fin 32768) (u : Fin 1) :
    val_main_v5 (F := F) x0 x1 x2 (ix3 p q u) = Spec.sampleOut x0 x1 x2 p q := by
  have hu : u = 0 := Fin.ext (by have := u.isLt; omega)
  subst hu
  rw [val_main_v5_apply, val_main_v3_apply, val_main_v2_apply, b0_apply, val_main_v4_apply]
  unfold Spec.sampleOut
  exact congrArg (fun z => FloatOps.addf (FloatOps.mulf (x0 (ix3 p q (0 : Fin 1))) (x2 (ix1 (0 : Fin 9)))) (x1 z))
    (funext fun a => match a with | ⟨0, _⟩ => rfl | ⟨1, _⟩ => rfl | ⟨2, _⟩ => rfl)

/-- The reference's first result at sample `(p, q)`. -/
theorem output_apply (x0 : FVec F S256x32768x1 .f32) (x1 : FVec F S256x32768x8 .f32) (x2 : FVec F S9 .f32)
    (p : Fin 256) (q : Fin 32768) :
    val_main_v19 (F := F) x0 x1 x2 (ix2 p q) = Spec.sampleOut x0 x1 x2 p q := by
  have hp := p.isLt
  have hq := q.isLt
  rw [val_main_v19_apply]
  have hi : idx_main_v19 (ix2 p q) = ix3 p q (0 : Fin 1) := funext fun a => match a with
    | ⟨0, _⟩ => Fin.ext (by show (p.val * 32768 + q.val) / 32768 = p.val; omega)
    | ⟨1, _⟩ => Fin.ext (by show (p.val * 32768 + q.val) / 1 % 32768 = q.val; omega)
    | ⟨2, _⟩ => rfl
  rw [hi, out3_apply]

/-- The reference's first result is the specification's output array. -/
theorem output_eq (x0 : FVec F S256x32768x1 .f32) (x1 : FVec F S256x32768x8 .f32) (x2 : FVec F S9 .f32) :
    val_main_v19 (F := F) x0 x1 x2 = Spec.output x0 x1 x2 := by
  funext i
  obtain ⟨p, q, rfl⟩ : ∃ (p : Fin 256) (q : Fin 32768), i = ix2 p q := ⟨i 0, i 1, eq_ix2 i⟩
  exact output_apply x0 x1 x2 p q

/-! ## The new state -/

/-- The state before the scatter, at sample `(p, q)`, tap `k`: `x · b (k + 1) − y · a k`. -/
theorem base_apply (x0 : FVec F S256x32768x1 .f32) (x1 : FVec F S256x32768x8 .f32) (x2 : FVec F S9 .f32) (x3 : FVec F S8 .f32)
    (p : Fin 256) (q : Fin 32768) (k : Fin 8) :
    val_main_v15 (F := F) x0 x1 x2 x3 (ix3 p q k)
      = FloatOps.subf (FloatOps.mulf (x0 (ix3 p q (0 : Fin 1))) (x2 (ix1 (⟨1 + k.val, by omega⟩ : Fin 9))))
          (FloatOps.mulf (Spec.sampleOut x0 x1 x2 p q) (x3 (ix1 k))) := by
  have e8 : idx_main_v8 (ix3 p q k) = ix3 p q (0 : Fin 1) := funext fun a => match a with
    | ⟨0, _⟩ => rfl | ⟨1, _⟩ => rfl | ⟨2, _⟩ => rfl
  have e12 : idx_main_v12 (ix3 p q k) = ix3 p q (0 : Fin 1) := funext fun a => match a with
    | ⟨0, _⟩ => rfl | ⟨1, _⟩ => rfl | ⟨2, _⟩ => rfl
  have e6 : idx_main_v6 (idx_main_v7 (idx_main_v9 (ix3 p q k))) = ix1 (⟨1 + k.val, by omega⟩ : Fin 9) := funext fun a => match a with
    | ⟨0, _⟩ => rfl
  have e11 : idx_main_v11 (idx_main_v13 (ix3 p q k)) = ix1 k := funext fun a => match a with
    | ⟨0, _⟩ => rfl
  rw [val_main_v15_apply, val_main_v10_apply, val_main_v8_apply, val_main_v9_apply, val_main_v7_apply, val_main_v6_apply,
    val_main_v14_apply, val_main_v12_apply, val_main_v13_apply, val_main_v11_apply, e8, e6, e12, e11, out3_apply]

/-- The scatter's one start index is the constant zero. -/
theorem start_zero : (val_main_v17 (F := F) : IVec S1 32) = fun _ => 0#32 :=
  funext fun k => by rw [val_main_v17_apply]; rfl

/-- Where update `(p, q, k)` lands: on element `(p, q, k)` of the operand. -/
def land (j : S256x32768x7.Idx) : S256x32768x8.Idx :=
  ix3 (n0 := 256) (n1 := 32768) (n2 := 8) (j 0) (j 1) ⟨(j 2).val, by have h : (j 2).val < 7 := (j 2).isLt; omega⟩

theorem land_injective : Function.Injective land := by
  intro j j' h
  funext a
  match a with
  | ⟨0, _⟩ => exact congrFun h 0
  | ⟨1, _⟩ => exact congrFun h 1
  | ⟨2, _⟩ => exact Fin.ext (show (land j 2).val = (land j' 2).val from congrArg Fin.val (congrFun h 2))

/-- Every update lands inside the operand, at `land`: the window starts at zero on every axis. -/
theorem lands (j : S256x32768x7.Idx) :
    scatter_S256x32768x8_S1_S256x32768x7_012_n_2_0.resultIdx? j (fun _ : S1.Idx => (0#32 : BitVec 32)) = some (land j) := by
  have hs : ∀ a, scatter_S256x32768x8_S1_S256x32768x7_012_n_2_0.start j (fun _ : S1.Idx => (0#32 : BitVec 32)) a = 0 := fun a => by
    unfold ScatterDims.start; split <;> rfl
  have hw : ∀ a : Fin 3, scatter_S256x32768x8_S1_S256x32768x7_012_n_2_0.window j a = (land j a).val := fun a => match a with
    | ⟨0, _⟩ => rfl | ⟨1, _⟩ => rfl | ⟨2, _⟩ => rfl
  have hb : ∀ a : Fin 3, (land j a).val < S256x32768x8.size a := fun a => (land j a).isLt
  unfold ScatterDims.resultIdx?
  rw [dif_pos (fun a => by rw [hs, hw]; have := hb a; omega)]
  refine congrArg some (funext fun a => Fin.ext ?_)
  show (scatter_S256x32768x8_S1_S256x32768x7_012_n_2_0.start j (fun _ : S1.Idx => (0#32 : BitVec 32)) a
    + (scatter_S256x32768x8_S1_S256x32768x7_012_n_2_0.window j a : Int)).toNat = (land j a).val
  rw [hs, hw]
  omega

/-- The scatter read where update `j` lands: the operand's element plus the update. -/
theorem scattered_hit (X : FVec F S256x32768x8 .f32) (U : FVec F S256x32768x7 .f32) (j : S256x32768x7.Idx) :
    Host.scatter scatter_S256x32768x8_S1_S256x32768x7_012_n_2_0 FloatOps.addf X (val_main_v17 (F := F)) U (land j)
      = FloatOps.addf (X (land j)) (U j) := by
  rw [start_zero]
  exact LibScatter.scatter_apply_hit _ _ X _ U land lands land_injective j

/-- The scatter read at the last tap, where no update lands: the operand's element. -/
theorem scattered_miss (X : FVec F S256x32768x8 .f32) (U : FVec F S256x32768x7 .f32) (i : S256x32768x8.Idx)
    (h : ¬ (i 2).val < 7) :
    Host.scatter scatter_S256x32768x8_S1_S256x32768x7_012_n_2_0 FloatOps.addf X (val_main_v17 (F := F)) U i = X i := by
  rw [start_zero]
  exact LibScatter.scatter_apply_miss _ _ X _ U land lands i
    (fun j e => h (by rw [← e]; exact (j 2).isLt))

/-- The reference's second result at sample `(p, q)`, tap `k`, over the extended reals: for the last tap the base value
    is the base value plus zero. -/
theorem newState_apply (x0 : FVec Ideal S256x32768x1 .f32) (x1 : FVec Ideal S256x32768x8 .f32) (x2 : FVec Ideal S9 .f32)
    (x3 : FVec Ideal S8 .f32) (p : Fin 256) (q : Fin 32768) (k : Fin 8) :
    val_main_v18 (F := Ideal) x0 x1 x2 x3 (ix3 p q k) = Spec.sampleTap x0 x1 x2 x3 p q k := by
  unfold val_main_v18 Spec.sampleTap Spec.shifted
  by_cases h : k.val < 7
  · have hi : ix3 p q k = land (ix3 p q (⟨k.val, h⟩ : Fin 7)) := funext fun a => match a with
      | ⟨0, _⟩ => rfl | ⟨1, _⟩ => rfl | ⟨2, _⟩ => rfl
    rw [dif_pos h, hi, scattered_hit, ← hi, base_apply, val_main_v16_apply]
    refine congrArg (fun z => FloatOps.addf _ (x1 z)) (funext fun a => match a with
      | ⟨0, _⟩ => rfl | ⟨1, _⟩ => rfl | ⟨2, _⟩ => Fin.ext (by show 1 + k.val = k.val + 1; omega))
  · rw [dif_neg h, scattered_miss _ _ _ h, base_apply]
    simp only [Ideal.addf_def, Ideal.ofBits_def, Ideal.ofBits_zero_f32, add_zero]

/-- The reference's second result, over the extended reals, is the specification's new state. -/
theorem newState_eq (x0 : FVec Ideal S256x32768x1 .f32) (x1 : FVec Ideal S256x32768x8 .f32) (x2 : FVec Ideal S9 .f32)
    (x3 : FVec Ideal S8 .f32) :
    val_main_v18 (F := Ideal) x0 x1 x2 x3 = Spec.newState x0 x1 x2 x3 := by
  funext i
  obtain ⟨p, q, k, rfl⟩ : ∃ (p : Fin 256) (q : Fin 32768) (k : Fin 8), i = ix3 p q k := ⟨i 0, i 1, i 2, eq_ix3 i⟩
  exact newState_apply x0 x1 x2 x3 p q k

end Cert.ReferenceIdeal.RefValue

end
-- ==== Proof.lean ====
/-
  One step of a transposed direct-form-II filter: the Pallas kernel against its jnp reference, over the extended reals.

  Both programs take an input per sample, eight state taps per sample, nine feed-forward and eight feedback
  coefficients, and return the step's output `y = x · b 0 + v 0` and the new state, tap `k` of which is
  `x · b (k + 1) − y · a k` plus the old tap `k + 1` (`Proof/Spec.lean`).

  The kernel flattens the samples, walks them in 1024 blocks of 8192 rows, computes each block with the samples along
  the lanes — the shift of the old taps as a rotation of the rows by seven places with the wrapped row masked to zero —
  and reshapes the results back (`Proof/KernelBody.lean`: one block's stores, entry by entry; `Proof/KernelArrays.lean`,
  `Proof/KernelRegion.lean`: the blocks are rows of two whole-array functions and tile the arrays;
  `Proof/FlatSpec.lean`, `Proof/KernelRun.lean`: with the reshapes around the region, the results are the
  specification's arrays). The reference adds the shifted taps by a scatter-add of one seven-tap window onto the first
  seven taps (`Proof/LibScatter.lean`: a scatter whose updates land on distinct elements, read at an element;
  `Proof/RefValue.lean`: the reference's results are the specification's arrays). The two differ in one place only: the
  kernel adds zero to the last tap where the reference adds nothing, and `z + 0 = z` for every extended real `z`. No
  other law is used, so the finiteness of the inputs is never opened.
-/
import proofs.«165674_j50714973831168_1_alg».proof.Defs
import proofs.«165674_j50714973831168_1_alg».proof.Proof.Gen.Kernel
import proofs.«165674_j50714973831168_1_alg».proof.Proof.Gen.Kernel.Skeleton
import proofs.«165674_j50714973831168_1_alg».proof.Proof.Gen.Kernel.Launch
import proofs.«165674_j50714973831168_1_alg».proof.Proof.Gen.Kernel.Points
import proofs.«165674_j50714973831168_1_alg».proof.Proof.Gen.Kernel.Frame
import proofs.«165674_j50714973831168_1_alg».proof.Proof.Gen.KernelIdeal
import proofs.«165674_j50714973831168_1_alg».proof.Proof.Gen.KernelIdeal.Skeleton
import proofs.«165674_j50714973831168_1_alg».proof.Proof.Gen.KernelIdeal.Launch
import proofs.«165674_j50714973831168_1_alg».proof.Proof.Gen.KernelIdeal.Points
import proofs.«165674_j50714973831168_1_alg».proof.Proof.Gen.KernelIdeal.Frame
import proofs.«165674_j50714973831168_1_alg».proof.Proof.Gen.ReferenceIdeal
import proofs.«165674_j50714973831168_1_alg».proof.Proof.Gen.Pre_finite_inputs
import proofs.«165674_j50714973831168_1_alg».proof.Proof.Gen.ReferenceIdeal.Run
import proofs.«165674_j50714973831168_1_alg».proof.Proof.Gen.ReferenceIdeal.Read
import proofs.«165674_j50714973831168_1_alg».proof.Proof.KernelRun
import proofs.«165674_j50714973831168_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the specification's output and new state of the arguments. -/
theorem algebraic : Cert.algebraic_KernelIdeal_ReferenceIdeal := by
  intro m ρ m' ρ' _ hagree
  refine ⟨_, _, Cert.KernelIdeal.Arrays.run (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.ReferenceIdeal.RefValue.output_eq,
      (hagree c).1, (hagree c).2.1, (hagree c).2.2.1]
  · rw [(h c).2.1, Cert.ReferenceIdeal.Read.val_main_v18_eq, Cert.ReferenceIdeal.RefValue.newState_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
